-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x64 : Shape := ⟨4, ![16, 128, 64, 64]⟩
abbrev S32x128 : Shape := ⟨2, ![32, 128]⟩
abbrev S32 : Shape := ⟨1, ![32]⟩
abbrev S_ : Shape := ⟨0, ![]⟩

class Facts : Prop where
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x128x64x64 .f32) (main_arg1 : FVec F S32x128 .f32) (main_arg2 : FVec F S32 .f32) : IVec S_ 1 :=
  let main_v0 : FVec F S16x128x64x64 .f32 := Host.absf main_arg0
  let main_cst : FVec F S_ .f32 := constant S_ .f32 0x7F800000#32
  let main_v1 : FVec F S16x128x64x64 .f32 := broadcastInDim S16x128x64x64 ![] bcast_S_S16x128x64x64 main_cst
  let main_v2 : IVec S16x128x64x64 1 := cmpf .olt main_v0 main_v1
  let main_c : IVec S_ 1 := constantI S_ 1 1#1
  let main_v3 : IVec S_ 1 := (fun x v => Host.reduce IntOp.andi x v reducesTo_S16x128x64x64_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x128x64x64 : Shape := ⟨4, ![16, 128, 64, 64]⟩
abbrev S32x128 : Shape := ⟨2, ![32, 128]⟩
abbrev S32 : Shape := ⟨1, ![32]⟩
abbrev S16x64x64x128 : Shape := ⟨4, ![16, 64, 64, 128]⟩
abbrev S16x4096x128 : Shape := ⟨3, ![16, 4096, 128]⟩
abbrev S1x32 : Shape := ⟨2, ![1, 32]⟩
abbrev S16x32x128 : Shape := ⟨3, ![16, 32, 128]⟩
abbrev S1x4096x128 : Shape := ⟨3, ![1, 4096, 128]⟩
abbrev S1x32x128 : Shape := ⟨3, ![1, 32, 128]⟩
abbrev S4096x128 : Shape := ⟨2, ![4096, 128]⟩
abbrev S32x1 : Shape := ⟨2, ![32, 1]⟩
abbrev S1x128 : Shape := ⟨2, ![1, 128]⟩
abbrev S1x4096 : Shape := ⟨2, ![1, 4096]⟩
abbrev S32x4096 : Shape := ⟨2, ![32, 4096]⟩
abbrev S4096 : Shape := ⟨1, ![4096]⟩

abbrev nBuf : Space → Nat
  | .hbm => 7
  | .vmem => 6
  | .smem => 0
  | _ => 0

abbrev bufTy : (tb : Table) → Fin (tcTables nBuf tb) → BufTy
  | .hbm, ⟨0, _⟩ => ⟨S16x128x64x64, .f32⟩
  | .hbm, ⟨1, _⟩ => ⟨S32x128, .f32⟩
  | .hbm, ⟨2, _⟩ => ⟨S32, .f32⟩
  | .hbm, ⟨3, _⟩ => ⟨S16x64x64x128, .f32⟩
  | .hbm, ⟨4, _⟩ => ⟨S16x4096x128, .f32⟩
  | .hbm, ⟨5, _⟩ => ⟨S1x32, .f32⟩
  | .hbm, ⟨6, _⟩ => ⟨S16x32x128, .f32⟩
  | .local _ .vmem, ⟨0, _⟩ => ⟨S1x4096x128, .f32⟩
  | .local _ .vmem, ⟨1, _⟩ => ⟨S1x4096x128, .f32⟩
  | .local _ .vmem, ⟨2, _⟩ => ⟨S32x128, .f32⟩
  | .local _ .vmem, ⟨3, _⟩ => ⟨S1x32, .f32⟩
  | .local _ .vmem, ⟨4, _⟩ => ⟨S1x32x128, .f32⟩
  | .local _ .vmem, ⟨5, _⟩ => ⟨S1x32x128, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x128x64x64_S16x64x64x128_0_2_3_1 : S16x128x64x64.Transposes [0, 2, 3, 1] S16x64x64x128
  shapeCasts_S16x64x64x128_S16x4096x128 : S16x64x64x128.ShapeCasts S16x4096x128
  shapeCasts_S32_S1x32 : S32.ShapeCasts S1x32
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S32x128_S32x128_0_0 : ∀ a, (![0, 0] : Fin 2 → Nat) a + S32x128.size a ≤ S32x128.size a
  h_S32x128 : 0 < S32x128.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S32x1 : S1x32.ShapeCasts S32x1
  reduces_S32x128_S32 : S32x128.Reduces [1] S32
  shapeCasts_S32_S32x1 : S32.ShapeCasts S32x1
  broadcasts_S1x4096_S32x4096 : S1x4096.Broadcasts S32x4096
  broadcasts_S32x1_S32x4096 : S32x1.Broadcasts S32x4096
  reduces_S32x4096_S4096 : S32x4096.Reduces [0] S4096
  shapeCasts_S4096_S1x4096 : S4096.ShapeCasts S1x4096
  reduces_S32x4096_S32 : S32x4096.Reduces [1] S32
  broadcasts_S32x1_S32x128 : S32x1.Broadcasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S1x128_S4096x128_S1x4096_1_1_0_0_n_n_wf : DotDims.WF S1x128 S4096x128 S1x4096 [1] [1] [0] [0] [] []
  dot_S32x128_S4096x128_S32x4096_1_1_0_0_n_n_wf : DotDims.WF S32x128 S4096x128 S32x4096 [1] [1] [0] [0] [] []
  dot_S32x4096_S4096x128_S32x128_1_0_0_1_n_n_wf : DotDims.WF S32x4096 S4096x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x4096x128.size a
  hwx0_0 : ∀ i : grid0.Coords, EltTy.bits .f32 = 32 ∨ (Rect.block (s := S16x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S16x32x128.size a
  hwx0_3 : ∀ i : grid0.Coords, EltTy.bits .f32 = 32 ∨ (Rect.block (s := S16x32x128) S1x32x128.size (cc0_transform_3 i) (hinb0_3 i)).WholeWords (EltTy.packing .f32)

variable [Facts₀]

def dot_S1x128_S4096x128_S1x4096_1_1_0_0_n_n : DotDims S1x128 S4096x128 S1x4096 where
  lhsContracting := [1]
  rhsContracting := [1]
  lhsNonContracting := [0]
  rhsNonContracting := [0]
  lhsBatch := []
  rhsBatch := []
  wf := dot_S1x128_S4096x128_S1x4096_1_1_0_0_n_n_wf
def dot_S32x128_S4096x128_S32x4096_1_1_0_0_n_n : DotDims S32x128 S4096x128 S32x4096 where
  lhsContracting := [1]
  rhsContracting := [1]
  lhsNonContracting := [0]
  rhsNonContracting := [0]
  lhsBatch := []
  rhsBatch := []
  wf := dot_S32x128_S4096x128_S32x4096_1_1_0_0_n_n_wf
def dot_S32x4096_S4096x128_S32x128_1_0_0_1_n_n : DotDims S32x4096 S4096x128 S32x128 where
  lhsContracting := [1]
  rhsContracting := [0]
  lhsNonContracting := [0]
  rhsNonContracting := [1]
  lhsBatch := []
  rhsBatch := []
  wf := dot_S32x4096_S4096x128_S32x128_1_0_0_1_n_n_wf

abbrev win0_0 : Pipeline.Window sig grid0 :=
  Pipeline.Window.ofSpec (Memref.whole main_v1) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x64x64 : Shape := ⟨4, ![16, 128, 64, 64]⟩
abbrev S32x128 : Shape := ⟨2, ![32, 128]⟩
abbrev S32 : Shape := ⟨1, ![32]⟩
abbrev S16x128x4096 : Shape := ⟨3, ![16, 128, 4096]⟩
abbrev S16x4096x128 : Shape := ⟨3, ![16, 4096, 128]⟩
abbrev S_ : Shape := ⟨0, ![]⟩
abbrev S16x4096 : Shape := ⟨2, ![16, 4096]⟩
abbrev S16x4096x32 : Shape := ⟨3, ![16, 4096, 32]⟩
abbrev S1x1x32 : Shape := ⟨3, ![1, 1, 32]⟩
abbrev S16x4096x1 : Shape := ⟨3, ![16, 4096, 1]⟩
abbrev S16x32x128 : Shape := ⟨3, ![16, 32, 128]⟩
abbrev S16x32 : Shape := ⟨2, ![16, 32]⟩
abbrev S16x32x1 : Shape := ⟨3, ![16, 32, 1]⟩
abbrev S1x32x128 : Shape := ⟨3, ![1, 32, 128]⟩

abbrev nBuf : Space → Nat
  | .hbm => 47
  | .vmem => 0
  | .smem => 0
  | _ => 0

abbrev bufTy : (tb : Table) → Fin (tcTables nBuf tb) → BufTy
  | .hbm, ⟨0, _⟩ => ⟨S16x128x64x64, .f32⟩
  | .hbm, ⟨1, _⟩ => ⟨S32x128, .f32⟩
  | .hbm, ⟨2, _⟩ => ⟨S32, .f32⟩
  | .hbm, ⟨3, _⟩ => ⟨S16x128x4096, .f32⟩
  | .hbm, ⟨4, _⟩ => ⟨S16x4096x128, .f32⟩
  | .hbm, ⟨5, _⟩ => ⟨S16x4096x128, .f32⟩
  | .hbm, ⟨6, _⟩ => ⟨S_, .f32⟩
  | .hbm, ⟨7, _⟩ => ⟨S16x4096, .f32⟩
  | .hbm, ⟨8, _⟩ => ⟨S32x128, .f32⟩
  | .hbm, ⟨9, _⟩ => ⟨S_, .f32⟩
  | .hbm, ⟨10, _⟩ => ⟨S32, .f32⟩
  | .hbm, ⟨11, _⟩ => ⟨S16x4096x32, .f32⟩
  | .hbm, ⟨12, _⟩ => ⟨S1x1x32, .f32⟩
  | .hbm, ⟨13, _⟩ => ⟨S16x4096x1, .f32⟩
  | .hbm, ⟨14, _⟩ => ⟨S_, .f32⟩
  | .hbm, ⟨15, _⟩ => ⟨S16x4096x32, .f32⟩
  | .hbm, ⟨16, _⟩ => ⟨S16x4096x32, .f32⟩
  | .hbm, ⟨17, _⟩ => ⟨S16x4096x32, .f32⟩
  | .hbm, ⟨18, _⟩ => ⟨S16x4096x32, .f32⟩
  | .hbm, ⟨19, _⟩ => ⟨S1x1x32, .f32⟩
  | .hbm, ⟨20, _⟩ => ⟨S16x4096x32, .f32⟩
  | .hbm, ⟨21, _⟩ => ⟨S16x4096x32, .f32⟩
  | .hbm, ⟨22, _⟩ => ⟨S16x4096x32, .f32⟩
  | .hbm, ⟨23, _⟩ => ⟨S16x4096x32, .f32⟩
  | .hbm, ⟨24, _⟩ => ⟨S_, .f32⟩
  | .hbm, ⟨25, _⟩ => ⟨S16x4096, .f32⟩
  | .hbm, ⟨26, _⟩ => ⟨S_, .f32⟩
  | .hbm, ⟨27, _⟩ => ⟨S16x4096, .f32⟩
  | .hbm, ⟨28, _⟩ => ⟨S16x4096, .f32⟩
  | .hbm, ⟨29, _⟩ => ⟨S16x4096x1, .f32⟩
  | .hbm, ⟨30, _⟩ => ⟨S16x4096x32, .f32⟩
  | .hbm, ⟨31, _⟩ => ⟨S16x4096x32, .f32⟩
  | .hbm, ⟨32, _⟩ => ⟨S16x4096x32, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x32, .f32⟩
  | .hbm, ⟨37, _⟩ => ⟨S16x4096x32, .f32⟩
  | .hbm, ⟨38, _⟩ => ⟨S16x32x128, .f32⟩
  | .hbm, ⟨39, _⟩ => ⟨S_, .f32⟩
  | .hbm, ⟨40, _⟩ => ⟨S16x32, .f32⟩
  | .hbm, ⟨41, _⟩ => ⟨S16x32x1, .f32⟩
  | .hbm, ⟨42, _⟩ => ⟨S1x32x128, .f32⟩
  | .hbm, ⟨43, _⟩ => ⟨S16x32x128, .f32⟩
  | .hbm, ⟨44, _⟩ => ⟨S16x32x128, .f32⟩
  | .hbm, ⟨45, _⟩ => ⟨S16x32x128, .f32⟩
  | .hbm, ⟨46, _⟩ => ⟨S16x32x128, .f32⟩
  | _, _ => ⟨S16x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S16x128x64x64_S16x128x4096 : S16x128x64x64.ShapeCasts S16x128x4096
  transposes_S16x128x4096_S16x4096x128_0_2_1 : S16x128x4096.Transposes [0, 2, 1] S16x4096x128
  reducesTo_S16x4096x128_S16x4096_d2 : S16x4096x128.ReducesTo [2] S16x4096
  h_S_ : 0 < S_.numel
  reducesTo_S32x128_S32_d1 : S32x128.ReducesTo [1] S32
  bcast_S32_S1x1x32_2 : S32.BroadcastsInDim S1x1x32 (![2] : Fin 1 → Fin S1x1x32.rank)
  bcast_S16x4096_S16x4096x1_0_1 : S16x4096.BroadcastsInDim S16x4096x1 (![0, 1] : Fin 2 → Fin S16x4096x1.rank)
  bcast_S_S16x4096x32 : S_.BroadcastsInDim S16x4096x32 (![] : Fin 0 → Fin S16x4096x32.rank)
  bcast_S16x4096x1_S16x4096x32_0_1_2 : S16x4096x1.BroadcastsInDim S16x4096x32 (![0, 1, 2] : Fin 3 → Fin S16x4096x32.rank)
  bcast_S1x1x32_S16x4096x32_0_1_2 : S1x1x32.BroadcastsInDim S16x4096x32 (![0, 1, 2] : Fin 3 → Fin S16x4096x32.rank)
  reducesTo_S16x4096x32_S16x4096_d2 : S16x4096x32.ReducesTo [2] S16x4096
  bcast_S_S16x4096 : S_.BroadcastsInDim S16x4096 (![] : Fin 0 → Fin S16x4096.rank)
  reducesTo_S16x4096x32_S16x32_d1 : S16x4096x32.ReducesTo [1] S16x32
  bcast_S16x32_S16x32x1_0_1 : S16x32.BroadcastsInDim S16x32x1 (![0, 1] : Fin 2 → Fin S16x32x1.rank)
  bcast_S32x128_S1x32x128_1_2 : S32x128.BroadcastsInDim S1x32x128 (![1, 2] : Fin 2 → Fin S1x32x128.rank)
  bcast_S16x32x1_S16x32x128_0_1_2 : S16x32x1.BroadcastsInDim S16x32x128 (![0, 1, 2] : Fin 3 → Fin S16x32x128.rank)
  bcast_S1x32x128_S16x32x128_0_1_2 : S1x32x128.BroadcastsInDim S16x32x128 (![0, 1, 2] : Fin 3 → Fin S16x32x128.rank)
  dot_S16x4096x128_S32x128_S16x4096x32_2_1_01_0_n_n_wf : DotDims.WF S16x4096x128 S32x128 S16x4096x32 [2] [1] [0, 1] [0] [] []
  dot_S16x4096x32_S16x4096x128_S16x32x128_1_1_2_2_0_0_wf : DotDims.WF S16x4096x32 S16x4096x128 S16x32x128 [1] [1] [2] [2] [0] [0]

variable [Facts₀]

def dot_S16x4096x128_S32x128_S16x4096x32_2_1_01_0_n_n : DotDims S16x4096x128 S32x128 S16x4096x32 where
  lhsContracting := [2]
  rhsContracting := [1]
  lhsNonContracting := [0, 1]
  rhsNonContracting := [0]
  lhsBatch := []
  rhsBatch := []
  wf := dot_S16x4096x128_S32x128_S16x4096x32_2_1_01_0_n_n_wf
def dot_S16x4096x32_S16x4096x128_S16x32x128_1_1_2_2_0_0 : DotDims S16x4096x32 S16x4096x128 S16x32x128 where
  lhsContracting := [1]
  rhsContracting := [1]
  lhsNonContracting := [2]
  rhsNonContracting := [2]
  lhsBatch := [0]
  rhsBatch := [0]
  wf := dot_S16x4096x32_S16x4096x128_S16x32x128_1_1_2_2_0_0_wf

class Facts : Prop extends Facts₀ where

variable [Facts]
-- ==== Proof.Spec.lean ====
/-
  Residual encoding of an image's pixels against a codebook, as one function of the three argument arrays.

  An image `b` has 4096 pixels `n = 64·h + w`, each a vector of 128 channels: `X n d = x[b, d, h, w]`. With 32 codewords
  `C k` (128 channels each) and one scale `s k` per codeword, the scaled squared distance of pixel `n` to codeword `k`,
  expanded so that no difference of vectors is formed, is
      logit n k = s k · (‖X n‖² − 2 · ⟨X n, C k⟩ + ‖C k‖²).
  Each pixel is assigned softly to the codewords by the softmax of its 32 logits, computed stably: the row's maximum
  is subtracted before the exponential. The result aggregates the residuals,
      enc k d = Σ_n assign n k · X n d − (Σ_n assign n k) · C k d.
  Everything is read on the extended reals, where `+` and `·` are commutative and associative, so the sums below may be
  taken in any order and their factors in either order; nothing here needs an entry to be finite.
-/
import Idealize.ShloMosaic.PureOps.Ideal
import Idealize.ShloMosaic.Lib.ValueIdx

noncomputable section

namespace Cert.Encoding

open Idealize.ShloMosaic Idealize.ShloMosaic.ValueIdx

/-- The f32 word of 2, which scales the inner product in both programs; the same word on both sides, never evaluated. -/
abbrev two : EReal := Ideal.ofBits .f32 0x40000000#32

/-- The f32 word of −∞, from which a row's maximum is started in both programs. -/
abbrev negInf : EReal := Ideal.ofBits .f32 0xFF800000#32

/-- The f32 word of 1 is the extended real 1. -/
theorem one_f32 : Ideal.ofBits .f32 0x3F800000#32 = 1 := by
  simp [Ideal.ofBits, Ideal.ieee, -EReal.coe_mul]; norm_num

section PerImage

variable (X : Fin 4096 → Fin 128 → EReal) (C : Fin 32 → Fin 128 → EReal) (s : Fin 32 → EReal)

/-- ‖X n‖², the sum of a pixel's squared channels. -/
def pixSq (n : Fin 4096) : EReal := ∑ d : Fin 128, X n d * X n d

/-- ‖C k‖², the sum of a codeword's squared channels. -/
def cwSq (k : Fin 32) : EReal := ∑ d : Fin 128, C k d * C k d

/-- ⟨X n, C k⟩, the inner product of a pixel and a codeword over the channels. -/
def cross (n : Fin 4096) (k : Fin 32) : EReal := ∑ d : Fin 128, X n d * C k d

/-- The scaled squared distance of pixel `n` to codeword `k`, in expanded form. -/
def logit (n : Fin 4096) (k : Fin 32) : EReal := s k * (pixSq X n - two * cross X C n k + cwSq C k)

/-- The largest of a pixel's 32 logits, folded from −∞. -/
def top (n : Fin 4096) : EReal := (Finset.univ : Finset (Fin 32)).fold max negInf (fun k => logit X C s n k)

/-- The shifted exponential of a logit. -/
def wexp (n : Fin 4096) (k : Fin 32) : EReal := Ideal.exp (logit X C s n k - top X C s n)

/-- The soft assignment of pixel `n` to codeword `k`: the softmax of the pixel's logits at `k`. -/
def assign (n : Fin 4096) (k : Fin 32) : EReal := Ideal.div (wexp X C s n k) (∑ k' : Fin 32, wexp X C s n k')

/-- The aggregated residual of codeword `k` at channel `d`. -/
def enc (k : Fin 32) (d : Fin 128) : EReal :=
  (∑ n : Fin 4096, assign X C s n k * X n d) - (∑ n : Fin 4096, assign X C s n k) * C k d

/-- Taking the maximum with −∞ once more changes nothing: the fold already starts there. -/
theorem max_negInf_top (n : Fin 4096) : max negInf (top X C s n) = top X C s n :=
  max_eq_right ((Finset.le_fold_max _).mpr (Or.inl le_rfl))

end PerImage

/-- Channel `d` of pixel `n = 64·h + w` of image `b`: the entry `x[b, d, h, w]` of the channel-major array. -/
def pix (x : (⟨4, ![16, 128, 64, 64]⟩ : Shape).Idx → EReal) (b : Fin 16) (n : Fin 4096) (d : Fin 128) : EReal :=
  x (ix4 b d ⟨n.val / 64, by have := n.isLt; omega⟩ ⟨n.val % 64, by have := n.isLt; omega⟩)

/-- The whole result `[16, 32, 128]` as one function of the three argument arrays, index by index. -/
def G (x : (⟨4, ![16, 128, 64, 64]⟩ : Shape).Idx → EReal) (cw : (⟨2, ![32, 128]⟩ : Shape).Idx → EReal)
    (sc : (⟨1, ![32]⟩ : Shape).Idx → EReal) : (⟨3, ![16, 32, 128]⟩ : Shape).Idx → EReal :=
  fun i => enc (pix x (i 0)) (fun k d => cw (ix2 k d)) (fun k => sc (ix1 k)) (i 1) (i 2)

end Cert.Encoding

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BodyOps.lean ====
/-
  The kernel body's reductions and matrix products, each read at one entry as a plain sum or maximum.

  On the extended reals a lane sum, a sublane sum and a matrix product into a zero accumulator are finite sums with no
  order or rounding left in them, and a sublane maximum started from −∞ is the fold of `max` over the column. The
  statements name every entry by its coordinates, so that they apply to the body's term whatever proofs of the shape
  facts it carries.
-/
import proofs.«119264_g88613765251683_pilotgen1_473_9_alg».proof.Proof.Gen.KernelIdeal
import proofs.«119264_g88613765251683_pilotgen1_473_9_alg».proof.Proof.LibColumn
import Idealize.ShloMosaic.PureOps.Ideal.Laws
import Idealize.ShloMosaic.Lib.ValueIdx
import Idealize.ShloMosaic.Lib.ValueLayout

noncomputable section

namespace Cert.KernelIdeal.Body

open Idealize.ShloMosaic Idealize.ShloMosaic.ValueIdx Cert.KernelIdeal

/-! ## Sums and the maximum along one axis -/

/-- The lane sum of a `[32, 128]` array at row `k`: the sum of the row's 128 entries. -/
theorem sum_lanes_32x128 (v : FVec Ideal S32x128 .f32) (h : S32x128.Reduces [1] S32) (hφ : FTy.f32 = FTy.f32 ∨ FTy.f32 = FTy.bf16)
    (hacc : (0x00000000#32 : BitVec 32) = 0x00000000#32) (k : Fin 32) :
    multiReduction .add [1] S32 v 0x00000000#32 h hφ hacc (ix1 k) = ∑ d : Fin 128, v (ix2 k d) :=
  (Ideal.multiReduction_add_single v 0x00000000#32 h hφ hacc (ix1 k)).trans
    (Finset.sum_congr rfl fun d _ => congrArg v (funext fun a => Fin.ext (by match a with | ⟨0, _⟩ => rfl | ⟨1, _⟩ => rfl)))

/-- The lane sum of a `[32, 4096]` array at row `k`: the sum of the row's 4096 entries. -/
theorem sum_lanes_32x4096 (v : FVec Ideal S32x4096 .f32) (h : S32x4096.Reduces [1] S32) (hφ : FTy.f32 = FTy.f32 ∨ FTy.f32 = FTy.bf16)
    (hacc : (0x00000000#32 : BitVec 32) = 0x00000000#32) (k : Fin 32) :
    multiReduction .add [1] S32 v 0x00000000#32 h hφ hacc (ix1 k) = ∑ n : Fin 4096, v (ix2 k n) :=
  (Ideal.multiReduction_add_single v 0x00000000#32 h hφ hacc (ix1 k)).trans
    (Finset.sum_congr rfl fun n _ => congrArg v (funext fun a => Fin.ext (by match a with | ⟨0, _⟩ => rfl | ⟨1, _⟩ => rfl)))

/-- The sublane sum of a `[32, 4096]` array at column `n`: the sum of the column's 32 entries. -/
theorem sum_sublanes_32x4096 (v : FVec Ideal S32x4096 .f32) (h : S32x4096.Reduces [0] S4096) (hφ : FTy.f32 = FTy.f32 ∨ FTy.f32 = FTy.bf16)
    (hacc : (0x00000000#32 : BitVec 32) = 0x00000000#32) (n : Fin 4096) :
    multiReduction .add [0] S4096 v 0x00000000#32 h hφ hacc (ix1 n) = ∑ k : Fin 32, v (ix2 k n) :=
  (Ideal.multiReduction_add_single v 0x00000000#32 h hφ hacc (ix1 n)).trans
    (Finset.sum_congr rfl fun k _ => congrArg v (funext fun a => Fin.ext (by match a with | ⟨0, _⟩ => rfl | ⟨1, _⟩ => rfl)))

/-- The sublane maximum of a `[32, 4096]` array at column `n`: the fold of `max`, from the word of −∞, over the column's 32
    entries. -/
theorem max_sublanes_32x4096 (v : FVec Ideal S32x4096 .f32) (h : S32x4096.Reduces [0] S4096) (hφ : FTy.f32 = FTy.f32 ∨ FTy.f32 = FTy.bf16)
    (hacc : (0xFF800000#32 : BitVec 32) = 0xFF800000#32) (n : Fin 4096) :
    multiReduction .maximumf [0] S4096 v 0xFF800000#32 h hφ hacc (ix1 n)
      = (Finset.univ : Finset (Fin 32)).fold max (Ideal.ofBits .f32 0xFF800000#32) (fun k => v (ix2 k n)) :=
  (Ideal.multiReduction_maximumf_single v 0xFF800000#32 h hφ hacc (ix1 n)).trans
    (congrArg (fun f : Fin 32 → EReal => (Finset.univ : Finset (Fin 32)).fold max (Ideal.ofBits .f32 0xFF800000#32) f)
      (funext fun k => congrArg v (funext fun a => Fin.ext (by match a with | ⟨0, _⟩ => rfl | ⟨1, _⟩ => rfl))))

/-! ## The reduced vectors, named

Each reduction of the body is a whole vector. Named as a function of its source, it is read at an entry by unfolding
(`rfl`), and the body's reduction IS that vector, entry by entry, by the readings above. -/

/-- The vector of a `[32, 128]` array's 32 row sums. -/
def rowSums128 (v : FVec Ideal S32x128 .f32) : FVec Ideal S32 .f32 := fun j => ∑ d : Fin 128, v (ix2 (j 0) d)

/-- The vector of a `[32, 4096]` array's 32 row sums. -/
def rowSums4096 (v : FVec Ideal S32x4096 .f32) : FVec Ideal S32 .f32 := fun j => ∑ n : Fin 4096, v (ix2 (j 0) n)

/-- The vector of a `[32, 4096]` array's 4096 column sums. -/
def colSums (v : FVec Ideal S32x4096 .f32) : FVec Ideal S4096 .f32 := fun j => ∑ k : Fin 32, v (ix2 k (j 0))

/-- The vector of a `[32, 4096]` array's 4096 column maxima, each folded from the word of −∞. -/
def colMaxes (v : FVec Ideal S32x4096 .f32) : FVec Ideal S4096 .f32 :=
  fun j => (Finset.univ : Finset (Fin 32)).fold max (Ideal.ofBits .f32 0xFF800000#32) (fun k => v (ix2 k (j 0)))

theorem rowSums128_apply (v : FVec Ideal S32x128 .f32) (k : Fin 32) : rowSums128 v (ix1 k) = ∑ d : Fin 128, v (ix2 k d) := rfl
theorem rowSums4096_apply (v : FVec Ideal S32x4096 .f32) (k : Fin 32) : rowSums4096 v (ix1 k) = ∑ n : Fin 4096, v (ix2 k n) := rfl
theorem colSums_apply (v : FVec Ideal S32x4096 .f32) (n : Fin 4096) : colSums v (ix1 n) = ∑ k : Fin 32, v (ix2 k n) := rfl
theorem colMaxes_apply (v : FVec Ideal S32x4096 .f32) (n : Fin 4096) :
    colMaxes v (ix1 n) = (Finset.univ : Finset (Fin 32)).fold max (Ideal.ofBits .f32 0xFF800000#32) (fun k => v (ix2 k n)) := rfl

theorem sum_lanes_32x128_eq (v : FVec Ideal S32x128 .f32) (h : S32x128.Reduces [1] S32) (hφ : FTy.f32 = FTy.f32 ∨ FTy.f32 = FTy.bf16)
    (hacc : (0x00000000#32 : BitVec 32) = 0x00000000#32) :
    multiReduction .add [1] S32 v 0x00000000#32 h hφ hacc = rowSums128 v :=
  funext fun j => by
    obtain ⟨k, rfl⟩ : ∃ k : Fin 32, j = ix1 k := ⟨j 0, eq_ix1 j⟩
    exact sum_lanes_32x128 v h hφ hacc k

theorem sum_lanes_32x4096_eq (v : FVec Ideal S32x4096 .f32) (h : S32x4096.Reduces [1] S32) (hφ : FTy.f32 = FTy.f32 ∨ FTy.f32 = FTy.bf16)
    (hacc : (0x00000000#32 : BitVec 32) = 0x00000000#32) :
    multiReduction .add [1] S32 v 0x00000000#32 h hφ hacc = rowSums4096 v :=
  funext fun j => by
    obtain ⟨k, rfl⟩ : ∃ k : Fin 32, j = ix1 k := ⟨j 0, eq_ix1 j⟩
    exact sum_lanes_32x4096 v h hφ hacc k

theorem sum_sublanes_32x4096_eq (v : FVec Ideal S32x4096 .f32) (h : S32x4096.Reduces [0] S4096) (hφ : FTy.f32 = FTy.f32 ∨ FTy.f32 = FTy.bf16)
    (hacc : (0x00000000#32 : BitVec 32) = 0x00000000#32) :
    multiReduction .add [0] S4096 v 0x00000000#32 h hφ hacc = colSums v :=
  funext fun j => by
    obtain ⟨n, rfl⟩ : ∃ n : Fin 4096, j = ix1 n := ⟨j 0, eq_ix1 j⟩
    exact sum_sublanes_32x4096 v h hφ hacc n

theorem max_sublanes_32x4096_eq (v : FVec Ideal S32x4096 .f32) (h : S32x4096.Reduces [0] S4096) (hφ : FTy.f32 = FTy.f32 ∨ FTy.f32 = FTy.bf16)
    (hacc : (0xFF800000#32 : BitVec 32) = 0xFF800000#32) :
    multiReduction .maximumf [0] S4096 v 0xFF800000#32 h hφ hacc = colMaxes v :=
  funext fun j => by
    obtain ⟨n, rfl⟩ : ∃ n : Fin 4096, j = ix1 n := ⟨j 0, eq_ix1 j⟩
    exact max_sublanes_32x4096 v h hφ hacc n

/-! ## The three matrix products

Each contracts one axis of each operand. The four coordinate facts of a product say which output coordinate, or the
contraction index, each operand coordinate is. -/

theorem lhs_ones_0 (i : S1x4096.Idx) (q : dot_S1x128_S4096x128_S1x4096_1_1_0_0_n_n.contr.Idx) :
    (dot_S1x128_S4096x128_S1x4096_1_1_0_0_n_n.lhsIdx i q 0).val = (i 0).val := by
  unfold DotDims.lhsIdx
  rw [dif_neg (show ¬(0 : Fin S1x128.rank) ∈ dot_S1x128_S4096x128_S1x4096_1_1_0_0_n_n.lhsBatch by decide), dif_pos (show (0 : Fin S1x128.rank) ∈ dot_S1x128_S4096x128_S1x4096_1_1_0_0_n_n.lhsNonContracting by decide)]
  rfl
theorem lhs_ones_1 (i : S1x4096.Idx) (q : dot_S1x128_S4096x128_S1x4096_1_1_0_0_n_n.contr.Idx) :
    (dot_S1x128_S4096x128_S1x4096_1_1_0_0_n_n.lhsIdx i q 1).val = (q ⟨0, by decide⟩).val :=
  dot_S1x128_S4096x128_S1x4096_1_1_0_0_n_n.lhsIdx_val_of_single rfl i q
theorem rhs_ones_0 (i : S1x4096.Idx) (q : dot_S1x128_S4096x128_S1x4096_1_1_0_0_n_n.contr.Idx) :
    (dot_S1x128_S4096x128_S1x4096_1_1_0_0_n_n.rhsIdx i q 0).val = (i 1).val := by
  unfold DotDims.rhsIdx
  rw [dif_neg (show ¬(0 : Fin S4096x128.rank) ∈ dot_S1x128_S4096x128_S1x4096_1_1_0_0_n_n.rhsBatch by decide), dif_pos (show (0 : Fin S4096x128.rank) ∈ dot_S1x128_S4096x128_S1x4096_1_1_0_0_n_n.rhsNonContracting by decide)]
  rfl
theorem rhs_ones_1 (i : S1x4096.Idx) (q : dot_S1x128_S4096x128_S1x4096_1_1_0_0_n_n.contr.Idx) :
    (dot_S1x128_S4096x128_S1x4096_1_1_0_0_n_n.rhsIdx i q 1).val = (q ⟨0, by decide⟩).val :=
  dot_S1x128_S4096x128_S1x4096_1_1_0_0_n_n.rhsIdx_val_of_single rfl i q

theorem lhs_cross_0 (i : S32x4096.Idx) (q : dot_S32x128_S4096x128_S32x4096_1_1_0_0_n_n.contr.Idx) :
    (dot_S32x128_S4096x128_S32x4096_1_1_0_0_n_n.lhsIdx i q 0).val = (i 0).val := by
  unfold DotDims.lhsIdx
  rw [dif_neg (show ¬(0 : Fin S32x128.rank) ∈ dot_S32x128_S4096x128_S32x4096_1_1_0_0_n_n.lhsBatch by decide), dif_pos (show (0 : Fin S32x128.rank) ∈ dot_S32x128_S4096x128_S32x4096_1_1_0_0_n_n.lhsNonContracting by decide)]
  rfl
theorem lhs_cross_1 (i : S32x4096.Idx) (q : dot_S32x128_S4096x128_S32x4096_1_1_0_0_n_n.contr.Idx) :
    (dot_S32x128_S4096x128_S32x4096_1_1_0_0_n_n.lhsIdx i q 1).val = (q ⟨0, by decide⟩).val :=
  dot_S32x128_S4096x128_S32x4096_1_1_0_0_n_n.lhsIdx_val_of_single rfl i q
theorem rhs_cross_0 (i : S32x4096.Idx) (q : dot_S32x128_S4096x128_S32x4096_1_1_0_0_n_n.contr.Idx) :
    (dot_S32x128_S4096x128_S32x4096_1_1_0_0_n_n.rhsIdx i q 0).val = (i 1).val := by
  unfold DotDims.rhsIdx
  rw [dif_neg (show ¬(0 : Fin S4096x128.rank) ∈ dot_S32x128_S4096x128_S32x4096_1_1_0_0_n_n.rhsBatch by decide), dif_pos (show (0 : Fin S4096x128.rank) ∈ dot_S32x128_S4096x128_S32x4096_1_1_0_0_n_n.rhsNonContracting by decide)]
  rfl
theorem rhs_cross_1 (i : S32x4096.Idx) (q : dot_S32x128_S4096x128_S32x4096_1_1_0_0_n_n.contr.Idx) :
    (dot_S32x128_S4096x128_S32x4096_1_1_0_0_n_n.rhsIdx i q 1).val = (q ⟨0, by decide⟩).val :=
  dot_S32x128_S4096x128_S32x4096_1_1_0_0_n_n.rhsIdx_val_of_single rfl i q

theorem lhs_agg_0 (i : S32x128.Idx) (q : dot_S32x4096_S4096x128_S32x128_1_0_0_1_n_n.contr.Idx) :
    (dot_S32x4096_S4096x128_S32x128_1_0_0_1_n_n.lhsIdx i q 0).val = (i 0).val := by
  unfold DotDims.lhsIdx
  rw [dif_neg (show ¬(0 : Fin S32x4096.rank) ∈ dot_S32x4096_S4096x128_S32x128_1_0_0_1_n_n.lhsBatch by decide), dif_pos (show (0 : Fin S32x4096.rank) ∈ dot_S32x4096_S4096x128_S32x128_1_0_0_1_n_n.lhsNonContracting by decide)]
  rfl
theorem lhs_agg_1 (i : S32x128.Idx) (q : dot_S32x4096_S4096x128_S32x128_1_0_0_1_n_n.contr.Idx) :
    (dot_S32x4096_S4096x128_S32x128_1_0_0_1_n_n.lhsIdx i q 1).val = (q ⟨0, by decide⟩).val :=
  dot_S32x4096_S4096x128_S32x128_1_0_0_1_n_n.lhsIdx_val_of_single rfl i q
theorem rhs_agg_0 (i : S32x128.Idx) (q : dot_S32x4096_S4096x128_S32x128_1_0_0_1_n_n.contr.Idx) :
    (dot_S32x4096_S4096x128_S32x128_1_0_0_1_n_n.rhsIdx i q 0).val = (q ⟨0, by decide⟩).val :=
  dot_S32x4096_S4096x128_S32x128_1_0_0_1_n_n.rhsIdx_val_of_single rfl i q
theorem rhs_agg_1 (i : S32x128.Idx) (q : dot_S32x4096_S4096x128_S32x128_1_0_0_1_n_n.contr.Idx) :
    (dot_S32x4096_S4096x128_S32x128_1_0_0_1_n_n.rhsIdx i q 1).val = (i 1).val := by
  unfold DotDims.rhsIdx
  rw [dif_neg (show ¬(1 : Fin S4096x128.rank) ∈ dot_S32x4096_S4096x128_S32x128_1_0_0_1_n_n.rhsBatch by decide), dif_pos (show (1 : Fin S4096x128.rank) ∈ dot_S32x4096_S4096x128_S32x128_1_0_0_1_n_n.rhsNonContracting by decide)]
  rfl

/-- A one-row matrix times the transpose of a `[4096, 128]` matrix, into zero: entry `n` of the row is the sum over the
    channels of the row's entry times the matrix's at `(n, d)`. -/
theorem ones_apply (l : FVec Ideal S1x128 .f32) (r : FVec Ideal S4096x128 .f32) (u : Fin 1) (n : Fin 4096) :
    matmul dot_S1x128_S4096x128_S1x4096_1_1_0_0_n_n none l r (constant (F := Ideal) S1x4096 .f32 0x00000000#32) (ix2 u n)
      = ∑ d : Fin 128, l (ix2 (0 : Fin 1) d) * r (ix2 n d) := by
  have hu : u = 0 := Fin.ext (by omega)
  subst hu
  simp only [matmul]
  rw [Ideal.matmul_constant_zero_apply, ← Equiv.sum_comp (ValueIdx.contrEquiv1 dot_S1x128_S4096x128_S1x4096_1_1_0_0_n_n 128 rfl rfl).symm]
  refine Finset.sum_congr rfl fun d _ => ?_
  have hd := ValueIdx.contrEquiv1_symm_val dot_S1x128_S4096x128_S1x4096_1_1_0_0_n_n 128 rfl rfl d
  have el : dot_S1x128_S4096x128_S1x4096_1_1_0_0_n_n.lhsIdx (ix2 (0 : Fin 1) n) ((ValueIdx.contrEquiv1 dot_S1x128_S4096x128_S1x4096_1_1_0_0_n_n 128 rfl rfl).symm d) = ix2 (0 : Fin 1) d := funext fun a => Fin.ext (by
    match a with
    | ⟨0, _⟩ => exact lhs_ones_0 _ _
    | ⟨1, _⟩ => exact (lhs_ones_1 _ _).trans hd)
  have er : dot_S1x128_S4096x128_S1x4096_1_1_0_0_n_n.rhsIdx (ix2 (0 : Fin 1) n) ((ValueIdx.contrEquiv1 dot_S1x128_S4096x128_S1x4096_1_1_0_0_n_n 128 rfl rfl).symm d) = ix2 n d := funext fun a => Fin.ext (by
    match a with
    | ⟨0, _⟩ => exact rhs_ones_0 _ _
    | ⟨1, _⟩ => exact (rhs_ones_1 _ _).trans hd)
  rw [el, er]

/-- The codebook times the transpose of the pixel matrix, into zero: entry `(k, n)` is the inner product of pixel `n` and
    codeword `k` over the channels, written with the pixel's factor first (the product of extended reals commutes). -/
theorem cross_apply (l : FVec Ideal S32x128 .f32) (r : FVec Ideal S4096x128 .f32) (k : Fin 32) (n : Fin 4096) :
    matmul dot_S32x128_S4096x128_S32x4096_1_1_0_0_n_n none l r (constant (F := Ideal) S32x4096 .f32 0x00000000#32) (ix2 k n)
      = ∑ d : Fin 128, r (ix2 n d) * l (ix2 k d) := by
  simp only [matmul]
  rw [Ideal.matmul_constant_zero_apply, ← Equiv.sum_comp (ValueIdx.contrEquiv1 dot_S32x128_S4096x128_S32x4096_1_1_0_0_n_n 128 rfl rfl).symm]
  refine Finset.sum_congr rfl fun d _ => ?_
  have hd := ValueIdx.contrEquiv1_symm_val dot_S32x128_S4096x128_S32x4096_1_1_0_0_n_n 128 rfl rfl d
  have el : dot_S32x128_S4096x128_S32x4096_1_1_0_0_n_n.lhsIdx (ix2 k n) ((ValueIdx.contrEquiv1 dot_S32x128_S4096x128_S32x4096_1_1_0_0_n_n 128 rfl rfl).symm d) = ix2 k d := funext fun a => Fin.ext (by
    match a with
    | ⟨0, _⟩ => exact lhs_cross_0 _ _
    | ⟨1, _⟩ => exact (lhs_cross_1 _ _).trans hd)
  have er : dot_S32x128_S4096x128_S32x4096_1_1_0_0_n_n.rhsIdx (ix2 k n) ((ValueIdx.contrEquiv1 dot_S32x128_S4096x128_S32x4096_1_1_0_0_n_n 128 rfl rfl).symm d) = ix2 n d := funext fun a => Fin.ext (by
    match a with
    | ⟨0, _⟩ => exact rhs_cross_0 _ _
    | ⟨1, _⟩ => exact (rhs_cross_1 _ _).trans hd)
  rw [el, er, mul_comm]

/-- The assignment matrix times the pixel matrix, into zero: entry `(k, d)` is the sum over the 4096 pixels of the
    assignment at `(k, n)` times the pixel's channel `d`. -/
theorem agg_apply (l : FVec Ideal S32x4096 .f32) (r : FVec Ideal S4096x128 .f32) (k : Fin 32) (d : Fin 128) :
    matmul dot_S32x4096_S4096x128_S32x128_1_0_0_1_n_n none l r (constant (F := Ideal) S32x128 .f32 0x00000000#32) (ix2 k d)
      = ∑ n : Fin 4096, l (ix2 k n) * r (ix2 n d) := by
  simp only [matmul]
  rw [Ideal.matmul_constant_zero_apply, ← Equiv.sum_comp (ValueIdx.contrEquiv1 dot_S32x4096_S4096x128_S32x128_1_0_0_1_n_n 4096 rfl rfl).symm]
  refine Finset.sum_congr rfl fun n _ => ?_
  have hn := ValueIdx.contrEquiv1_symm_val dot_S32x4096_S4096x128_S32x128_1_0_0_1_n_n 4096 rfl rfl n
  have el : dot_S32x4096_S4096x128_S32x128_1_0_0_1_n_n.lhsIdx (ix2 k d) ((ValueIdx.contrEquiv1 dot_S32x4096_S4096x128_S32x128_1_0_0_1_n_n 4096 rfl rfl).symm n) = ix2 k n := funext fun a => Fin.ext (by
    match a with
    | ⟨0, _⟩ => exact lhs_agg_0 _ _
    | ⟨1, _⟩ => exact (lhs_agg_1 _ _).trans hn)
  have er : dot_S32x4096_S4096x128_S32x128_1_0_0_1_n_n.rhsIdx (ix2 k d) ((ValueIdx.contrEquiv1 dot_S32x4096_S4096x128_S32x128_1_0_0_1_n_n 4096 rfl rfl).symm n) = ix2 n d := funext fun a => Fin.ext (by
    match a with
    | ⟨0, _⟩ => exact (rhs_agg_0 _ _).trans hn
    | ⟨1, _⟩ => exact rhs_agg_1 _ _)
  rw [el, er]

end Cert.KernelIdeal.Body

end
-- ==== Proof.KernelBody.lean ====
/-
  The kernel body's result at one entry is the residual encoding of the three loaded blocks.

  The body holds a `[1, 4096, 128]` block of pixels, the whole `[32, 128]` codebook and the `[1, 32]` row of scales. It
  forms ‖X n‖² as a product of a row of ones with the squared pixels, ⟨X n, C k⟩ as the codebook times the transposed
  pixels, ‖C k‖² as a lane sum; scales the expanded squared distance; takes the softmax down each column (maximum,
  shifted exponential, column sum, quotient); and aggregates by one more product and one more lane sum. Read at
  entry `(0, k, d)` on the extended reals, every layout operation is an index map, every product and reduction a
  plain sum or maximum, and the row of ones contributes `1 · y = y`: what is left is `enc` of the blocks' entries.
-/
import proofs.«119264_g88613765251683_pilotgen1_473_9_alg».proof.Proof.Gen.KernelIdeal.Skeleton
import proofs.«119264_g88613765251683_pilotgen1_473_9_alg».proof.Proof.BodyOps
import proofs.«119264_g88613765251683_pilotgen1_473_9_alg».proof.Proof.Spec

noncomputable section

namespace Cert.KernelIdeal.Body

open Idealize.ShloMosaic Idealize.ShloMosaic.ValueIdx Cert.KernelIdeal Cert.KernelIdeal.Gen Cert.Encoding Cert.LibColumn

/-- The exponential of a vector, read at an entry. -/
theorem exp_apply {s : Shape} (a : FVec Ideal s .f32) (i : s.Idx) : exp a i = Ideal.exp (a i) := rfl

/-- The body's stored value at entry `(0, k, d)` of its `[1, 32, 128]` block, as a function of the entries of the three
    blocks it loaded: the aggregated residual of codeword `k` at channel `d` over the block's 4096 pixels. -/
theorem pay_apply (x0 : Vec Ideal S1x4096x128 .f32) (x1 : Vec Ideal S32x128 .f32) (x2 : Vec Ideal S1x32 .f32) (k : Fin 32) (d : Fin 128) :
    k0_pay1 (F := Ideal) x0 x1 x2 (ix3 (0 : Fin 1) k d)
      = enc (fun n d => x0 (ix3 (0 : Fin 1) n d)) (fun k d => x1 (ix2 k d)) (fun k => x2 (ix2 (0 : Fin 1) k)) k d := by
  unfold k0_pay1
  dsimp only
  -- the four reductions, as whole vectors
  rw [sum_lanes_32x128_eq, max_sublanes_32x4096_eq, sum_sublanes_32x4096_eq, sum_lanes_32x4096_eq]
  -- the entry pushed through every operation down to the loaded blocks
  simp only [shapeCast_ab_1ab_apply, subf_apply, mulf_apply, addf_apply, divf_apply, exp_apply, broadcast_apply,
    agg_apply, cross_apply, ones_apply, rowSums128_apply, rowSums4096_apply, colSums_apply, colMaxes_apply,
    broadcastTo_a1_ab_apply, broadcastTo_1b_ab_apply, shapeCast_a_a1_apply, shapeCast_1a_a1_apply, shapeCast_a_1a_apply,
    shapeCast_1ab_ab_apply, shapeCast_self, Ideal.ofBits_def, one_f32, one_mul]
  unfold enc assign wexp top logit pixSq cwSq cross
  rfl

end Cert.KernelIdeal.Body

end
-- ==== Proof.KernelArray.lean ====
/-
  From the blocks to the whole result array.

  The call runs the body once per image: grid point `t` stages image `t`'s `[1, 4096, 128]` block of the pixel array, the
  whole codebook and the row of scales, and writes back block `t` of the `[16, 32, 128]` result. The pixel array is the
  channel-major argument `x[b, d, h, w]` transposed to `[b, h, w, d]` and reshaped to `[b, 64·h + w, d]` on the host, so
  its entry `(b, n, d)` is `x[b, d, n / 64, n % 64]`; the row of scales is the argument viewed as `[1, 32]`. What point
  `t` writes back is therefore block `t` of `G` of the three argument arrays, the 16 blocks tile the result along its
  first axis, and the array ends at `G`.
-/
import proofs.«119264_g88613765251683_pilotgen1_473_9_alg».proof.Proof.Gen.KernelIdeal.Value
import proofs.«119264_g88613765251683_pilotgen1_473_9_alg».proof.Proof.KernelBody
import proofs.«119264_g88613765251683_pilotgen1_473_9_alg».proof.Proof.Spec
import Idealize.ShloMosaic.Lib.Pipeline.Value
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Encoding
open Idealize.ShloMosaic.Pipeline (Dat)

variable (m : (ℓ : Loc nD τ sig) → Buf (Elt Ideal) ℓ) (ρ : Dev nD → PrngReg)

/-! ## The arrays the call finds -/

/-- The pixel array as the call finds it: the argument transposed to channel-minor order and flattened over the image
    plane, so entry `(b, n, d)` is channel `d` of pixel `n` of image `b`. -/
theorem V_pixels (c : Dev nD) (b : Fin 16) (n : Fin 4096) (d : Fin 128) :
    (V m c main_v1 : S16x4096x128.Idx → EReal) (ix3 b n d) = pix (m ((c : Thread nD τ).loc main_arg0)) b n d := by
  have e : (V m c main_v1 : S16x4096x128.Idx → EReal)
      = shapeCast S16x4096x128 (transpose S16x64x64x128 [0, 2, 3, 1] (m ((c : Thread nD τ).loc main_arg0)) Cert.KernelIdeal.Gen.transposes_S16x128x64x64_S16x64x64x128_0_2_3_1) Cert.KernelIdeal.Gen.shapeCasts_S16x64x64x128_S16x4096x128 := by
    dsimp only [V, hostOps0]; after_results; rfl
  rw [e]
  have hn : n.val < 4096 := n.isLt
  refine (shapeCast_apply _ _ (ix3 b n d) (ix4 b (⟨n.val / 64, by omega⟩ : Fin 64) (⟨n.val % 64, by omega⟩ : Fin 64) d) ?_).trans ?_
  · rw [Shape.rowMajor_val_four, Shape.rowMajor_val_three]
    show ((b.val * 64 + n.val / 64) * 64 + n.val % 64) * 128 + d.val = (b.val * 4096 + n.val) * 128 + d.val
    omega
  · exact transpose_apply _ _ _ _ (ix4 b d (⟨n.val / 64, by omega⟩ : Fin 64) (⟨n.val % 64, by omega⟩ : Fin 64))
      (fun a => match a with | ⟨0, _⟩ => rfl | ⟨1, _⟩ => rfl | ⟨2, _⟩ => rfl | ⟨3, _⟩ => rfl)

/-- The row of scales as the call finds it: the argument viewed as one row. -/
theorem V_scales (c : Dev nD) (k : Fin 32) :
    (V m c main_v2 : S1x32.Idx → EReal) (ix2 (0 : Fin 1) k) = (m ((c : Thread nD τ).loc main_arg2)) (ix1 k) := by
  have e : (V m c main_v2 : S1x32.Idx → EReal) = shapeCast S1x32 (m ((c : Thread nD τ).loc main_arg2)) Cert.KernelIdeal.Gen.shapeCasts_S32_S1x32 := by
    dsimp only [V, hostOps0]; after_results; rfl
  rw [e]
  exact shapeCast_a_1a_apply _ _ 0 k

/-! ## The windows' blocks -/

/-- The grid point as an image number. -/
def img (t : Fin cfg0.N) : Fin 16 := ⟨t.val, by have h : t.val < grid0.N := t.isLt; rw [N_0] at h; exact h⟩

/-- The printed index maps over the 16 points: the pixel window and the result window are at block `(t, 0, 0)`, the
    codebook and the scales at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Point `t`'s pixel block is image `t`: its entry `(0, n, d)` is channel `d` of pixel `n` of that image. -/
theorem pixels_blk (c : Dev nD) (t : Fin cfg0.N) (n : Fin 4096) (d : Fin 128) :
    iblk m c 0 t (ix3 (0 : Fin 1) n d) = pix (m ((c : Thread nD τ).loc main_arg0)) (img t) n d := by
  unfold iblk
  show (V m c main_v1 : S16x4096x128.Idx → EReal) (((cfg0.win 0).blk t).view.emb (ix3 (0 : Fin 1) n d)) = _
  have e : ((cfg0.win 0).blk t).view.emb (ix3 (0 : Fin 1) n d) = ix3 (img t) n d := by
    obtain ⟨e0, e1, e2, -⟩ := idx_facts t
    funext a; apply Fin.ext
    match a with
    | ⟨0, _⟩ => show win0_0.index t (0 : Fin 3) * 1 + 1 * 0 = t.val; omega
    | ⟨1, _⟩ => show win0_0.index t (1 : Fin 3) * 4096 + 1 * n.val = n.val; omega
    | ⟨2, _⟩ => show win0_0.index t (2 : Fin 3) * 128 + 1 * d.val = d.val; omega
  rw [e]
  exact V_pixels m c (img t) n d

/-- Every point's codebook block is the whole codebook argument. -/
theorem codebook_blk (c : Dev nD) (t : Fin cfg0.N) (k : Fin 32) (d : Fin 128) :
    iblk m c 1 t (ix2 k d) = (m ((c : Thread nD τ).loc main_arg1)) (ix2 k d) := by
  unfold iblk
  show (V m c main_arg1 : S32x128.Idx → EReal) (((cfg0.win 1).blk t).view.emb (ix2 k d)) = _
  have e : ((cfg0.win 1).blk t).view.emb (ix2 k d) = ix2 k d := by
    obtain ⟨-, -, -, e0, e1, -⟩ := idx_facts t
    funext a; apply Fin.ext
    match a with
    | ⟨0, _⟩ => show win0_1.index t (0 : Fin 2) * 32 + 1 * k.val = k.val; omega
    | ⟨1, _⟩ => show win0_1.index t (1 : Fin 2) * 128 + 1 * d.val = d.val; omega
  rw [e, V_main_arg1]

/-- Every point's block of scales is the whole row: its entry `(0, k)` is the argument's entry `k`. -/
theorem scales_blk (c : Dev nD) (t : Fin cfg0.N) (k : Fin 32) :
    iblk m c 2 t (ix2 (0 : Fin 1) k) = (m ((c : Thread nD τ).loc main_arg2)) (ix1 k) := by
  unfold iblk
  show (V m c main_v2 : S1x32.Idx → EReal) (((cfg0.win 2).blk t).view.emb (ix2 (0 : Fin 1) k)) = _
  have e : ((cfg0.win 2).blk t).view.emb (ix2 (0 : Fin 1) k) = ix2 (0 : Fin 1) k := by
    obtain ⟨-, -, -, -, -, e0, e1, -⟩ := idx_facts t
    funext a; apply Fin.ext
    match a with
    | ⟨0, _⟩ => show win0_2.index t (0 : Fin 2) * 1 + 1 * 0 = 0; omega
    | ⟨1, _⟩ => show win0_2.index t (1 : Fin 2) * 32 + 1 * k.val = k.val; omega
  rw [e]
  exact V_scales m c k

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- What point `t` writes back is block `t` of `G` of the three argument arrays: the body's value at `(0, k, d)` is the
    encoding of image `t` at `(k, d)`, and the block's entry `(0, k, d)` is the array's entry `(t, k, d)`. -/
theorem flushed_eq (c : Dev nD) (t : Fin cfg0.N) :
    (dats m 0 c).flushed 3 t = ((cfg0.win 3).blk t).view.read (Elt Ideal) (G (m ((c : Thread nD τ).loc main_arg0)) (m ((c : Thread nD τ).loc main_arg1)) (m ((c : Thread nD τ).loc main_arg2))) := by
  rw [Cert.KernelIdeal.Value.flushed3]
  unfold out0_3
  rw [View.canon_unit_zero hz3]
  simp only [View.ld_unit_zero (S := S1x4096x128) hz3, View.ld_unit_zero (S := S32x128) hz2, View.ld_unit_zero (S := S1x32) hz2]
  funext y
  obtain ⟨u, k, d, rfl⟩ : ∃ (u : Fin 1) (k : Fin 32) (d : Fin 128), y = ix3 u k d := ⟨y 0, y 1, y 2, eq_ix3 y⟩
  have hu : u = 0 := Fin.ext (by omega)
  subst hu
  show k0_pay1 (F := Ideal) (iblk m c 0 t) (iblk m c 1 t) (iblk m c 2 t) (ix3 (0 : Fin 1) k d)
    = G (m ((c : Thread nD τ).loc main_arg0)) (m ((c : Thread nD τ).loc main_arg1)) (m ((c : Thread nD τ).loc main_arg2)) (((cfg0.win 3).blk t).view.emb (ix3 (0 : Fin 1) k d))
  have e : ((cfg0.win 3).blk t).view.emb (ix3 (0 : Fin 1) k d) = ix3 (img t) k d := by
    obtain ⟨-, -, -, -, -, -, -, e0, e1, e2⟩ := idx_facts t
    funext a; apply Fin.ext
    match a with
    | ⟨0, _⟩ => show win0_3.index t (0 : Fin 3) * 1 + 1 * 0 = t.val; omega
    | ⟨1, _⟩ => show win0_3.index t (1 : Fin 3) * 32 + 1 * k.val = k.val; omega
    | ⟨2, _⟩ => show win0_3.index t (2 : Fin 3) * 128 + 1 * d.val = d.val; omega
  rw [e]
  refine (Cert.KernelIdeal.Body.pay_apply (iblk m c 0 t) (iblk m c 1 t) (iblk m c 2 t) k d).trans ?_
  have hX : (fun (n : Fin 4096) (d : Fin 128) => iblk m c 0 t (ix3 (0 : Fin 1) n d)) = pix (m ((c : Thread nD τ).loc main_arg0)) (img t) :=
    funext fun n => funext fun d => pixels_blk m c t n d
  have hC : (fun (k : Fin 32) (d : Fin 128) => iblk m c 1 t (ix2 k d)) = fun k d => (m ((c : Thread nD τ).loc main_arg1)) (ix2 k d) :=
    funext fun k => funext fun d => codebook_blk m c t k d
  have hS : (fun (k : Fin 32) => iblk m c 2 t (ix2 (0 : Fin 1) k)) = fun k => (m ((c : Thread nD τ).loc main_arg2)) (ix1 k) :=
    funext fun k => scales_blk m c t k
  rw [hX, hC, hS]
  rfl

/-! ## The blocks tile the result -/

/-- An entry of the result is in point `t`'s block iff each coordinate is in the block's range on its axis. -/
theorem mem_blk (t : Fin cfg0.N) (i : S16x32x128.Idx) :
    i ∈ ((cfg0.win 3).blk t).view.set ↔ ∀ a : Fin 3, win0_3.index t a * S1x32x128.size a ≤ (i a).val ∧ (i a).val < win0_3.index t a * S1x32x128.size a + S1x32x128.size a := by
  show i ∈ ((View.whole main_v3).slice (win0_3.rect t)).set ↔ _
  rw [View.set_slice_whole, Rect.mem_set_unit]
  exact Iff.rfl

/-- Every entry `(b, k, d)` of the result is in the block of point `b`, which writes back. -/
theorem cover (c : Dev nD) (i : S16x32x128.Idx) :
    ∃ t : Fin cfg0.N, (cfg0.win 3).flush t = true ∧ i ∈ ((cfg0.win 3).blk t).view.set := by
  have hi0 : (i 0).val < 16 := (i 0).isLt
  have hi1 : (i 1).val < 32 := (i 1).isLt
  have hi2 : (i 2).val < 128 := (i 2).isLt
  have hN : (i 0).val < cfg0.N := by show (i 0).val < grid0.N; rw [N_0]; exact hi0
  refine ⟨⟨(i 0).val, hN⟩, flush0_3 _, ?_⟩
  rw [mem_blk]
  obtain ⟨-, -, -, -, -, -, -, e0, e1, e2⟩ := idx_facts ⟨(i 0).val, hN⟩
  have e0' : win0_3.index ⟨(i 0).val, hN⟩ (0 : Fin 3) = (i 0).val := e0
  intro a
  match a with
  | ⟨0, _⟩ => show win0_3.index ⟨(i 0).val, hN⟩ (0 : Fin 3) * 1 ≤ (i 0).val ∧ (i 0).val < win0_3.index ⟨(i 0).val, hN⟩ (0 : Fin 3) * 1 + 1; omega
  | ⟨1, _⟩ => show win0_3.index ⟨(i 0).val, hN⟩ (1 : Fin 3) * 32 ≤ (i 1).val ∧ (i 1).val < win0_3.index ⟨(i 0).val, hN⟩ (1 : Fin 3) * 32 + 32; omega
  | ⟨2, _⟩ => show win0_3.index ⟨(i 0).val, hN⟩ (2 : Fin 3) * 128 ≤ (i 2).val ∧ (i 2).val < win0_3.index ⟨(i 0).val, hN⟩ (2 : Fin 3) * 128 + 128; omega

/-- The result array after the call is `G` of the three argument arrays. -/
theorem final (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 (G (m ((c : Thread nD τ).loc main_arg0)) (m ((c : Thread nD τ).loc main_arg1)) (m ((c : Thread nD τ).loc main_arg2))) (fun t _ => flushed_eq m c t) (cover c)

/-! ## The run -/

/-- Every weakly fair execution of the idealized kernel program terminates with the result array at `G` of the argument
    arrays and the arguments unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference program's result is the residual encoding, read one stage at a time.

  The generated module reads each of the program's 44 operations at an index from its operands at an index. Here every
  stage that carries mathematics is identified, at explicit coordinates (image `b`, pixel `n`, codeword `k`, channel
  `d`), with the quantity of the specification it computes: the pixel array `X n d = x[b, d, n / 64, n % 64]`; the
  three sums over the channels `‖X n‖²`, `‖C k‖²`, `⟨X n, C k⟩`; the logit `s k · (‖X n‖² − 2 · ⟨X n, C k⟩ + ‖C k‖²)`;
  the row's maximum, a fold of `max` from −∞ over the 32 codewords; the shifted exponential, its row sum and their
  quotient, the soft assignment; the two sums over the 4096 pixels; and the residual. A broadcast stage only renames
  the index, a sum started from the zero word is the plain sum, and the factors and terms stand in the specification in
  the program's own order, so no step commutes anything.
-/
import proofs.«119264_g88613765251683_pilotgen1_473_9_alg».proof.Proof.Gen.ReferenceIdeal.Read
import proofs.«119264_g88613765251683_pilotgen1_473_9_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Read Cert.Encoding Idealize.ShloMosaic Idealize.ShloMosaic.ValueIdx

/-! ## The pixel array: two layout stages -/

/-- Stage 1 (the reshape of the two spatial axes into one, then the swap of channel and pixel axes) at image `b`,
    pixel `n`, channel `d` is the entry `x[b, d, n / 64, n % 64]`. -/
theorem v1_at (x0 : (⟨S16x128x64x64, .f32⟩ : BufTy).Contents (Elt Ideal)) (b : Fin 16) (n : Fin 4096) (d : Fin 128) :
    val_main_v1 (F := Ideal) x0 (ix3 b n d) = pix x0 b n d := by
  rw [val_main_v1_apply, val_main_v0_apply]
  unfold pix
  refine congrArg x0 (funext fun a => Fin.ext ?_)
  have hb := b.isLt; have hn := n.isLt; have hd := d.isLt
  match a with
  | ⟨0, _⟩ => show ((b.val * 128 + d.val) * 4096 + n.val) / 524288 = b.val; omega
  | ⟨1, _⟩ => show ((b.val * 128 + d.val) * 4096 + n.val) / 4096 % 128 = d.val; omega
  | ⟨2, _⟩ => show ((b.val * 128 + d.val) * 4096 + n.val) / 64 % 64 = n.val / 64; omega
  | ⟨3, _⟩ => show ((b.val * 128 + d.val) * 4096 + n.val) % 64 = n.val % 64; omega

/-! ## The three sums over the channels -/

/-- The codebook as a family: codeword `k`, channel `d`. -/
abbrev cwOf (x1 : (⟨S32x128, .f32⟩ : BufTy).Contents (Elt Ideal)) : Fin 32 → Fin 128 → EReal := fun k d => x1 (ix2 k d)

/-- The scales as a family: one per codeword. -/
abbrev scOf (x2 : (⟨S32, .f32⟩ : BufTy).Contents (Elt Ideal)) : Fin 32 → EReal := fun k => x2 (ix1 k)

/-- Stage 3, the sum over the channels of the squared pixel array started from the zero word, at `(b, n)` is `‖X n‖²`. -/
theorem v3_at (x0 : (⟨S16x128x64x64, .f32⟩ : BufTy).Contents (Elt Ideal)) (b : Fin 16) (n : Fin 4096) :
    val_main_v3 (F := Ideal) x0 (ix2 b n) = pixSq (pix x0 b) n := by
  rw [val_main_v3_apply, val_main_cst_apply, Ideal.ofBits_def, Ideal.ofBits_zero_f32, zero_add]
  unfold pixSq
  refine Finset.sum_congr rfl fun d _ => ?_
  have e : idx_main_v3 (ix2 b n) d = ix3 b n d :=
    funext fun a => Fin.ext (by match a with | ⟨0, _⟩ => rfl | ⟨1, _⟩ => rfl | ⟨2, _⟩ => rfl)
  rw [e, val_main_v2_apply, Ideal.mulf_def, v1_at]

/-- Stage 5, the sum over the channels of the squared codebook started from the zero word, at `k` is `‖C k‖²`. -/
theorem v5_at (x1 : (⟨S32x128, .f32⟩ : BufTy).Contents (Elt Ideal)) (k : Fin 32) :
    val_main_v5 (F := Ideal) x1 (ix1 k) = cwSq (cwOf x1) k := by
  rw [val_main_v5_apply, val_main_cst_0_apply, Ideal.ofBits_def, Ideal.ofBits_zero_f32, zero_add]
  unfold cwSq
  refine Finset.sum_congr rfl fun d _ => ?_
  have e : idx_main_v5 (ix1 k) d = ix2 k d :=
    funext fun a => Fin.ext (by match a with | ⟨0, _⟩ => rfl | ⟨1, _⟩ => rfl)
  rw [e, val_main_v4_apply, Ideal.mulf_def]

/-- Stage 6, the contraction of the pixel array with the codebook over the channels, at `(b, n, k)` is `⟨X n, C k⟩`. -/
theorem v6_at (x0 : (⟨S16x128x64x64, .f32⟩ : BufTy).Contents (Elt Ideal)) (x1 : (⟨S32x128, .f32⟩ : BufTy).Contents (Elt Ideal))
    (b : Fin 16) (n : Fin 4096) (k : Fin 32) :
    val_main_v6 (F := Ideal) x0 x1 (ix3 b n k) = cross (pix x0 b) (cwOf x1) n k := by
  rw [val_main_v6_apply]
  unfold cross
  refine Finset.sum_congr rfl fun d _ => ?_
  have el : lidx_main_v6 (ix3 b n k) d = ix3 b n d :=
    funext fun a => Fin.ext (by match a with | ⟨0, _⟩ => rfl | ⟨1, _⟩ => rfl | ⟨2, _⟩ => rfl)
  have er : ridx_main_v6 (ix3 b n k) d = ix2 k d :=
    funext fun a => Fin.ext (by match a with | ⟨0, _⟩ => rfl | ⟨1, _⟩ => rfl)
  rw [el, er, v1_at]

/-! ## The logits -/

/-- Stage 17 at `(b, n, k)` is the scaled squared distance of pixel `n` to codeword `k`: the scale of `k`, broadcast
    along the image and pixel axes, times the squared norm of the pixel (broadcast along the codewords) minus the word
    of 2 times the inner product, plus the squared norm of the codeword (broadcast along the image and pixel axes). -/
theorem v17_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (n : Fin 4096) (k : Fin 32) :
    val_main_v17 (F := Ideal) x0 x1 x2 (ix3 b n k) = logit (pix x0 b) (cwOf x1) (scOf x2) n k := by
  have e7 : idx_main_v7 (idx_main_v16 (ix3 b n k)) = ix1 k :=
    funext fun a => Fin.ext (by match a with | ⟨0, _⟩ => rfl)
  have e8 : idx_main_v8 (idx_main_v11 (ix3 b n k)) = ix2 b n :=
    funext fun a => Fin.ext (by match a with | ⟨0, _⟩ => rfl | ⟨1, _⟩ => rfl)
  have e13 : idx_main_v13 (idx_main_v14 (ix3 b n k)) = ix1 k :=
    funext fun a => Fin.ext (by match a with | ⟨0, _⟩ => rfl)
  rw [val_main_v17_apply, val_main_v16_apply, val_main_v7_apply, e7,
    val_main_v15_apply, val_main_v12_apply, val_main_v11_apply, val_main_v8_apply, e8, v3_at,
    val_main_v10_apply, val_main_v9_apply, val_main_cst_1_apply, v6_at,
    val_main_v14_apply, val_main_v13_apply, e13, v5_at]
  simp only [Ideal.mulf_def, Ideal.addf_def, Ideal.subf_def, Ideal.ofBits_def]
  rfl

/-! ## The row maximum -/

/-- Stage 18, the maximum over the codewords started from the word of −∞, at `(b, n)` is the largest logit of pixel `n`:
    a maximum is commutative and associative, so the reduction is the fold over the 32 coordinates of the dropped axis. -/
theorem v18_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (n : Fin 4096) :
    val_main_v18 (F := Ideal) x0 x1 x2 (ix2 b n) = top (pix x0 b) (cwOf x1) (scOf x2) n := by
  have hR : S16x4096x32.Reduces [2] S16x4096 := by decide
  unfold val_main_v18
  rw [Host.reduce_eq_fold_single _ _ _ _ hR]
  show Finset.fold max negInf _ (Finset.univ : Finset (Fin 32)) = _
  unfold top
  refine Finset.fold_congr fun k _ => ?_
  have e : hR.lift (ix2 b n) k = ix3 b n k :=
    funext fun a => Fin.ext (by match a with | ⟨0, _⟩ => rfl | ⟨1, _⟩ => rfl | ⟨2, _⟩ => rfl)
  exact (congrArg (val_main_v17 (F := Ideal) x0 x1 x2) e).trans (v17_at x0 x1 x2 b n k)

/-- Stage 20 takes the maximum with −∞ once more, which changes nothing. -/
theorem v20_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (n : Fin 4096) :
    val_main_v20 (F := Ideal) x0 x1 x2 (ix2 b n) = top (pix x0 b) (cwOf x1) (scOf x2) n := by
  rw [val_main_v20_apply, val_main_v19_apply, val_main_cst_3_apply, v18_at, Ideal.maximumf_def, Ideal.ofBits_def]
  exact max_negInf_top _ _ _ n

/-! ## The softmax -/

/-- Stage 24 at `(b, n, k)` is the exponential of the logit less the row's maximum (broadcast along the codewords). -/
theorem v24_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (n : Fin 4096) (k : Fin 32) :
    val_main_v24 (F := Ideal) x0 x1 x2 (ix3 b n k) = wexp (pix x0 b) (cwOf x1) (scOf x2) n k := by
  have e : idx_main_v21 (idx_main_v22 (ix3 b n k)) = ix2 b n :=
    funext fun a => Fin.ext (by match a with | ⟨0, _⟩ => rfl | ⟨1, _⟩ => rfl)
  rw [val_main_v24_apply, val_main_v23_apply, v17_at, val_main_v22_apply, val_main_v21_apply, e, v20_at,
    Ideal.hostUnary_exp_def, Ideal.subf_def]
  rfl

/-- Stage 25, the sum over the codewords of the shifted exponentials started from the zero word, at `(b, n)`. -/
theorem v25_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (n : Fin 4096) :
    val_main_v25 (F := Ideal) x0 x1 x2 (ix2 b n) = ∑ k : Fin 32, wexp (pix x0 b) (cwOf x1) (scOf x2) n k := by
  rw [val_main_v25_apply, val_main_cst_4_apply, Ideal.ofBits_def, Ideal.ofBits_zero_f32, zero_add]
  refine Finset.sum_congr rfl fun k _ => ?_
  have e : idx_main_v25 (ix2 b n) k = ix3 b n k :=
    funext fun a => Fin.ext (by match a with | ⟨0, _⟩ => rfl | ⟨1, _⟩ => rfl | ⟨2, _⟩ => rfl)
  rw [e, v24_at]

/-- Stage 28 at `(b, n, k)` is the soft assignment: the shifted exponential over the row's sum (broadcast along the
    codewords). -/
theorem v28_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (n : Fin 4096) (k : Fin 32) :
    val_main_v28 (F := Ideal) x0 x1 x2 (ix3 b n k) = assign (pix x0 b) (cwOf x1) (scOf x2) n k := by
  have e : idx_main_v26 (idx_main_v27 (ix3 b n k)) = ix2 b n :=
    funext fun a => Fin.ext (by match a with | ⟨0, _⟩ => rfl | ⟨1, _⟩ => rfl)
  rw [val_main_v28_apply, v24_at, val_main_v27_apply, val_main_v26_apply, e, v25_at, Ideal.hostDivf_def]
  rfl

/-! ## The two sums over the pixels, and the result -/

/-- Stage 29, the contraction of the assignments with the pixel array over the pixels (the image a batch axis), at
    `(b, k, d)`. -/
theorem v29_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (k : Fin 32) (d : Fin 128) :
    val_main_v29 (F := Ideal) x0 x1 x2 (ix3 b k d)
      = ∑ n : Fin 4096, assign (pix x0 b) (cwOf x1) (scOf x2) n k * pix x0 b n d := by
  rw [val_main_v29_apply]
  refine Finset.sum_congr rfl fun n _ => ?_
  have el : lidx_main_v29 (ix3 b k d) n = ix3 b n k :=
    funext fun a => Fin.ext (by match a with | ⟨0, _⟩ => rfl | ⟨1, _⟩ => rfl | ⟨2, _⟩ => rfl)
  have er : ridx_main_v29 (ix3 b k d) n = ix3 b n d :=
    funext fun a => Fin.ext (by match a with | ⟨0, _⟩ => rfl | ⟨1, _⟩ => rfl | ⟨2, _⟩ => rfl)
  rw [el, er, v28_at, v1_at]

/-- Stage 30, the sum over the pixels of the assignments started from the zero word, at `(b, k)`. -/
theorem v30_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (k : Fin 32) :
    val_main_v30 (F := Ideal) x0 x1 x2 (ix2 b k) = ∑ n : Fin 4096, assign (pix x0 b) (cwOf x1) (scOf x2) n k := by
  rw [val_main_v30_apply, val_main_cst_5_apply, Ideal.ofBits_def, Ideal.ofBits_zero_f32, zero_add]
  refine Finset.sum_congr rfl fun n _ => ?_
  have e : idx_main_v30 (ix2 b k) n = ix3 b n k :=
    funext fun a => Fin.ext (by match a with | ⟨0, _⟩ => rfl | ⟨1, _⟩ => rfl | ⟨2, _⟩ => rfl)
  rw [e, v28_at]

/-- Stage 36 at `(b, k, d)` is the aggregated residual: the weighted sum of the pixels less the total weight (broadcast
    along the channels) times the codeword (broadcast along the images). -/
theorem v36_at (x0 : (⟨S16x128x64x64, .f32⟩ : BufTy).Contents (Elt Ideal)) (x1 : (⟨S32x128, .f32⟩ : BufTy).Contents (Elt Ideal))
    (x2 : (⟨S32, .f32⟩ : BufTy).Contents (Elt Ideal)) (b : Fin 16) (k : Fin 32) (d : Fin 128) :
    val_main_v36 (F := Ideal) x0 x1 x2 (ix3 b k d) = enc (pix x0 b) (cwOf x1) (scOf x2) k d := by
  have e31 : idx_main_v31 (idx_main_v33 (ix3 b k d)) = ix2 b k :=
    funext fun a => Fin.ext (by match a with | ⟨0, _⟩ => rfl | ⟨1, _⟩ => rfl)
  have e32 : idx_main_v32 (idx_main_v34 (ix3 b k d)) = ix2 k d :=
    funext fun a => Fin.ext (by match a with | ⟨0, _⟩ => rfl | ⟨1, _⟩ => rfl)
  rw [val_main_v36_apply, v29_at, val_main_v35_apply, val_main_v33_apply, val_main_v31_apply, e31, v30_at,
    val_main_v34_apply, val_main_v32_apply, e32, Ideal.subf_def, Ideal.mulf_def]
  rfl

/-- The reference's result is the residual encoding of the three argument arrays, index by index. -/
theorem result_eq (x0 : (⟨Cert.ReferenceIdeal.S16x128x64x64, .f32⟩ : BufTy).Contents (Elt Ideal)) (x1 : (⟨Cert.ReferenceIdeal.S32x128, .f32⟩ : BufTy).Contents (Elt Ideal)) (x2 : (⟨Cert.ReferenceIdeal.S32, .f32⟩ : BufTy).Contents (Elt Ideal)) :
    Cert.ReferenceIdeal.Read.val_main_v36 (F := Ideal) x0 x1 x2 = Cert.Encoding.G x0 x1 x2 := by
  funext i
  obtain ⟨b, k, d, rfl⟩ : ∃ (b : Fin 16) (k : Fin 32) (d : Fin 128), i = ix3 b k d := ⟨i 0, i 1, i 2, eq_ix3 i⟩
  exact v36_at x0 x1 x2 b k d

end Cert.ReferenceIdeal.RefValue

end
-- ==== Proof.lean ====
/-
  The residual-encoding kernel against its jnp reference, over the extended reals.

  Both programs take an image batch `x : f32[16, 128, 64, 64]`, a codebook `C : f32[32, 128]` and scales `s : f32[32]`.
  With `X[b, n, d] = x[b, d, n / 64, n % 64]` the pixels of image `b`, both compute

      logit[b, n, k] = s[k] · (‖X[b, n]‖² − 2 · ⟨X[b, n], C[k]⟩ + ‖C[k]‖²),
      A[b, n, ·]     = softmax over k of logit[b, n, ·]   (the row's maximum subtracted before the exponential),
      E[b, k, d]     = Σ_n A[b, n, k] · X[b, n, d] − (Σ_n A[b, n, k]) · C[k, d].

  The reference writes this with whole-batch operations: two reductions, two contractions, a softmax along the last
  axis. The kernel runs once per image on a `[4096, 128]` block of pixels: it forms ‖X n‖² as the product of a row of
  ones with the squared pixels, the inner products as the codebook times the transposed pixels (so its arrays are
  `[k, n]` where the reference's are `[n, k]`), takes the softmax down the columns, and aggregates with one more
  product and a lane sum. Read at `Ideal`, a change of layout is an index map, every product into a zero accumulator
  and every reduction is a finite sum or a maximum, and the two sides differ only by `1 · y = y`, by the order of two
  factors in the inner product, by one more maximum with −∞ after the reference's reduction, and by the order of
  summation. Addition and multiplication of extended reals are commutative and associative, and the maximum folded
  from −∞ already dominates −∞, so both results are the one function `Cert.Encoding.G` of the arguments (Proof/Spec.lean)
  and the precondition that the inputs are finite is never opened.

  The kernel's side: Proof/BodyOps.lean reads the body's reductions and products at an entry, Proof/KernelBody.lean the
  body's stored value, Proof/KernelArray.lean carries the 16 blocks to the whole array. The reference's side:
  Proof/RefValue.lean reads its run stage by stage. The idealized kernel is the kernel's own text read at `Ideal` (no
  rewrite was applied), so nothing is owed for the idealization.
-/
import proofs.«119264_g88613765251683_pilotgen1_473_9_alg».proof.Defs
import proofs.«119264_g88613765251683_pilotgen1_473_9_alg».proof.Proof.Gen.Kernel
import proofs.«119264_g88613765251683_pilotgen1_473_9_alg».proof.Proof.Gen.Kernel.Skeleton
import proofs.«119264_g88613765251683_pilotgen1_473_9_alg».proof.Proof.Gen.Kernel.Launch
import proofs.«119264_g88613765251683_pilotgen1_473_9_alg».proof.Proof.Gen.Kernel.Points
import proofs.«119264_g88613765251683_pilotgen1_473_9_alg».proof.Proof.Gen.Kernel.Frame
import proofs.«119264_g88613765251683_pilotgen1_473_9_alg».proof.Proof.Gen.KernelIdeal
import proofs.«119264_g88613765251683_pilotgen1_473_9_alg».proof.Proof.Gen.KernelIdeal.Skeleton
import proofs.«119264_g88613765251683_pilotgen1_473_9_alg».proof.Proof.Gen.KernelIdeal.Launch
import proofs.«119264_g88613765251683_pilotgen1_473_9_alg».proof.Proof.Gen.KernelIdeal.Points
import proofs.«119264_g88613765251683_pilotgen1_473_9_alg».proof.Proof.Gen.KernelIdeal.Frame
import proofs.«119264_g88613765251683_pilotgen1_473_9_alg».proof.Proof.Gen.ReferenceIdeal
import proofs.«119264_g88613765251683_pilotgen1_473_9_alg».proof.Proof.Gen.Pre_finite_inputs
import proofs.«119264_g88613765251683_pilotgen1_473_9_alg».proof.Proof.Gen.KernelIdeal.Value
import proofs.«119264_g88613765251683_pilotgen1_473_9_alg».proof.Proof.Gen.ReferenceIdeal.Run
import proofs.«119264_g88613765251683_pilotgen1_473_9_alg».proof.Proof.Gen.ReferenceIdeal.Read
import proofs.«119264_g88613765251683_pilotgen1_473_9_alg».proof.Proof.Spec
import proofs.«119264_g88613765251683_pilotgen1_473_9_alg».proof.Proof.KernelArray
import proofs.«119264_g88613765251683_pilotgen1_473_9_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading at `Ideal`. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the three arguments both programs end with their result at `G` of those arguments: the
    kernel's array block by block, the reference's as the last stage of its run. -/
theorem algebraic : Cert.algebraic_KernelIdeal_ReferenceIdeal := by
  intro m ρ m' ρ' _ hagree
  refine ⟨fun c => Cert.Encoding.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
